-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x128 : Shape := ⟨2, ![2000, 128]⟩
abbrev S2000x64 : Shape := ⟨2, ![2000, 64]⟩
abbrev S1700000x64 : Shape := ⟨2, ![1700000, 64]⟩
abbrev S1x64 : Shape := ⟨2, ![1, 64]⟩
abbrev S1x40 : Shape := ⟨2, ![1, 40]⟩
abbrev S100000x40 : Shape := ⟨2, ![100000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 70
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S1x40, .f32⟩
  | .hbm, ⟨68, _⟩ => ⟨S100000x64, .f32⟩
  | .hbm, ⟨69, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x40, .f32⟩
  | .local _ .vmem, ⟨9, _⟩ => ⟨S1x40, .f32⟩
  | .local _ .vmem, ⟨10, _⟩ => ⟨S2000x64, .f32⟩
  | .local _ .vmem, ⟨11, _⟩ => ⟨S2000x64, .f32⟩
  | .local _ .vmem, ⟨12, _⟩ => ⟨S2000x40, .f32⟩
  | .local _ .vmem, ⟨13, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48_0 : Ref sig .tc := ⟨.hbm, 68, rfl⟩
abbrev main_v48_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S40_S1x40 : S40.ShapeCasts S1x40
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x40_S2000x40_1_0_0_1_n_n_wf : DotDims.WF S2000x64 S64x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S100000x40.size a
  hwx1_5 : ∀ i : grid1.Coords, EltTy.bits .f32 = 32 ∨ (Rect.block (s := S100000x40) S2000x40.size (cc1_transform_5 i) (hinb1_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48_0) S2000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v48_1) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x40, .f32⟩
  | .hbm, ⟨73, _⟩ => ⟨S1x40, .f32⟩
  | .hbm, ⟨74, _⟩ => ⟨S100000x40, .f32⟩
  | .hbm, ⟨75, _⟩ => ⟨S100000x40, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x40, .f32⟩
  | .hbm, ⟨83, _⟩ => ⟨S100000x40, .f32⟩
  | .hbm, ⟨84, _⟩ => ⟨S100000x40, .f32⟩
  | .hbm, ⟨85, _⟩ => ⟨S_, .f32⟩
  | .hbm, ⟨86, _⟩ => ⟨S100000, .f32⟩
  | .hbm, ⟨87, _⟩ => ⟨S100000x1, .f32⟩
  | .hbm, ⟨88, _⟩ => ⟨S100000x1, .f32⟩
  | .hbm, ⟨89, _⟩ => ⟨S100000x40, .f32⟩
  | .hbm, ⟨90, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call2_cst : Ref sig .tc := ⟨.hbm, 76, rfl⟩
abbrev main_call2_v0 : Ref sig .tc := ⟨.hbm, 77, rfl⟩
abbrev main_call2_cst_0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_cst_1 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_v54 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Region0.lean ====
/-
  The projection kernel's result array. Each grid point t multiplies rows 2000·t … 2000·t + 1999 of the feature
  table X : [100000, 128] by the whole weight table W : [128, 64] into a zero accumulator; over the extended reals
  the narrowing of both operands is the identity, so the tile's entry (p, q) is the plain sum over k of
  X (2000·t + p, k) · W (k, q): the tile IS the block of the product X · W that its rectangle names, and the fifty
  tiles cover the result array.
-/
import proofs.«161004_j27032524161265_1_alg».proof.Proof.Gen.KernelIdeal.Frame
import proofs.«161004_j27032524161265_1_alg».proof.Proof.LibPlainProduct
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The feature table and the weight table as the region finds them. -/
abbrev feat (c : Dev nD) : FVec Ideal S100000x128 .f32 := V c main_arg0
abbrev wts (c : Dev nD) : FVec Ideal S128x64 .f32 := V c main_arg2

/-- The tile's entry (p, q): the plain sum over the contracted coordinate. -/
theorem pay_apply (x0 : Vec Ideal S2000x128 .f32) (x1 : Vec Ideal S128x64 .f32) (p : Fin 2000) (q : Fin 64) :
    k0_pay1 (F := Ideal) x0 x1 (ix2 p q) = ∑ k : Fin 128, x0 (ix2 p k) * x1 (ix2 k q) := by
  unfold k0_pay1
  exact PlainProduct.matmul_zero_apply (M := 2000) (K := 128) (N := 64) none
    (truncf (F := Ideal) .bf16 x0 bitsLt_bf16_f32) (truncf (F := Ideal) .bf16 x1 bitsLt_bf16_f32) p q

/-- The printed index maps over the grid: the row blocks move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two tables. -/
theorem flushed_eq (c : Dev nD) (t : Fin cfg0.N) :
    (dat0 V c).flushed 2 t = ((cfg0.win 2).blk t).view.read (Elt Ideal)
      (PlainProduct.prod (M := 100000) (K := 128) (N := 64) (φ₁ := .f32) (φ₂ := .f32) (feat V c) (wts V c)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  obtain ⟨e00, e01, e10, e11, e20, e21⟩ := idx_facts t
  funext j
  obtain ⟨p, q, rfl⟩ : ∃ (p : Fin 2000) (q : Fin 64), j = ix2 p q := ⟨j 0, j 1, eq_ix2 j⟩
  refine (pay_apply _ _ p q).trans ?_
  show _ = ∑ k : Fin 128, feat V c (ix2 ((((cfg0.win 2).blk t).view.emb (ix2 p q)) 0) k) * wts V c (ix2 k ((((cfg0.win 2).blk t).view.emb (ix2 p q)) 1))
  refine Finset.sum_congr rfl fun k _ => ?_
  have h0 : ((cfg0.win 0).blk t).view.emb (ix2 p k) = (ix2 ((((cfg0.win 2).blk t).view.emb (ix2 p q)) 0) k : S100000x128.Idx) := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q) = (ix2 k ((((cfg0.win 2).blk t).view.emb (ix2 p q)) 1) : S128x64.Idx) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  show feat V c (((cfg0.win 0).blk t).view.emb (ix2 p k)) * wts V c (((cfg0.win 1).blk t).view.emb (ix2 k q)) = _
  rw [h0, h1]

/-- An index of the result array is in point t's block iff each coordinate is in the block's range. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v32).slice (win0_2.rect t)).set ↔ _
  rw [View.set_slice_whole, Rect.mem_set_unit]
  exact Iff.rfl

/-- Row r of the result array lies in the block of point r / 2000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 2000, by rw [show cfg0.N = 50 from N_0]; omega⟩, flush0_2 _, ?_⟩
  rw [mem_blk]
  obtain ⟨-, -, -, -, e20, e21⟩ := idx_facts ⟨(i 0).val / 2000, by rw [show cfg0.N = 50 from N_0]; omega⟩
  intro a
  match a with
  | ⟨0, _⟩ => show win0_2.index _ (0 : Fin 2) * 2000 ≤ (i 0).val ∧ (i 0).val < win0_2.index _ (0 : Fin 2) * 2000 + 2000; rw [e20]; show (i 0).val / 2000 * 2000 ≤ (i 0).val ∧ (i 0).val < (i 0).val / 2000 * 2000 + 2000; omega
  | ⟨1, _⟩ => show win0_2.index _ (1 : Fin 2) * 64 ≤ (i 1).val ∧ (i 1).val < win0_2.index _ (1 : Fin 2) * 64 + 64; rw [e21]; omega

/-- The result array after the region: the product of the feature table and the weight table. -/
theorem final (c : Dev nD) :
    (dat0 V c).arrAt 2 cfg0.N = PlainProduct.prod (M := 100000) (K := 128) (N := 64) (φ₁ := .f32) (φ₂ := .f32) (feat V c) (wts V c) :=
  (dat0 V c).arrAt_eq_of_cover 2 _ (fun t _ => flushed_eq V c t) cover

end Cert.KernelIdeal.Region0

end
-- ==== Proof.LibRowSoftmax.lean ====
/-
  The logarithm of a row-wise softmax of a biased table, over the extended reals.
  For X : [a, b] and a bias row β : [1, b], with L (p, k) = X (p, k) + β (0, k) and M p the maximum of row p of L
  (a fold of max from the lowest value), the entry (p, q) is (L (p, q) − M p) − log Σₖ exp (L (p, k) − M p).
  Read at an index: the vector-unit form (a lane maximum and a lane sum kept as columns and spread back along the
  rows) and the host form (reductions over axis 1, the maximum taken once more against the lowest value, the columns
  re-inserted by broadcasts) are both this function. Entry (p, q) depends on row p of X only.
-/
import Idealize.ShloMosaic.Lib.ValueIdx
import Idealize.ShloMosaic.Lib.ValueLayout
import Idealize.ShloMosaic.Lib.Pipeline.Value
import Idealize.ShloMosaic.PureOps.Ideal.Laws
import Mathlib.Data.Finset.Fold

noncomputable section

namespace Cert.RowSoftmax

open Idealize.ShloMosaic Idealize.ShloMosaic.ValueIdx

variable {a b : ℕ}

/-- The lowest value, as the programs spell it: the word of −∞, never evaluated. -/
abbrev lowest : EReal := Ideal.ofBits .f32 0xFF800000#32

/-- The biased entry. -/
def logit (X : FVec Ideal ⟨2, ![a, b]⟩ .f32) (β : FVec Ideal ⟨2, ![1, b]⟩ .f32) (p : Fin a) (k : Fin b) : EReal :=
  X (ix2 p k) + β (ix2 (0 : Fin 1) k)

/-- The maximum of a row of biased entries. -/
def rowMax (X : FVec Ideal ⟨2, ![a, b]⟩ .f32) (β : FVec Ideal ⟨2, ![1, b]⟩ .f32) (p : Fin a) : EReal :=
  (Finset.univ : Finset (Fin b)).fold max lowest (logit X β p)

/-- A biased entry less its row's maximum. -/
def shifted (X : FVec Ideal ⟨2, ![a, b]⟩ .f32) (β : FVec Ideal ⟨2, ![1, b]⟩ .f32) (p : Fin a) (k : Fin b) : EReal :=
  logit X β p k - rowMax X β p

/-- The logarithm of the softmax along each row. -/
def logSoftmax (X : FVec Ideal ⟨2, ![a, b]⟩ .f32) (β : FVec Ideal ⟨2, ![1, b]⟩ .f32) : FVec Ideal ⟨2, ![a, b]⟩ .f32 :=
  fun i => shifted X β (i 0) (i 1) - Ideal.log (∑ k : Fin b, Ideal.exp (shifted X β (i 0) k))

theorem logSoftmax_apply (X : FVec Ideal ⟨2, ![a, b]⟩ .f32) (β : FVec Ideal ⟨2, ![1, b]⟩ .f32) (p : Fin a) (q : Fin b) :
    logSoftmax X β (ix2 p q) = shifted X β p q - Ideal.log (∑ k : Fin b, Ideal.exp (shifted X β p k)) := rfl

/-- Entry (p, q) reads row p only: two tables that agree on a row give the same entries along it. -/
theorem logSoftmax_row {a' : ℕ} (X : FVec Ideal ⟨2, ![a, b]⟩ .f32) (X' : FVec Ideal ⟨2, ![a', b]⟩ .f32)
    (β : FVec Ideal ⟨2, ![1, b]⟩ .f32) (p : Fin a) (p' : Fin a') (q : Fin b) (h : ∀ k, X (ix2 p k) = X' (ix2 p' k)) :
    logSoftmax X β (ix2 p q) = logSoftmax X' β (ix2 p' q) := by
  have hl : logit X β p = logit X' β p' := funext fun k => by unfold logit; rw [h k]
  rw [logSoftmax_apply, logSoftmax_apply]
  unfold shifted rowMax
  rw [hl]

/-! ## The vector-unit form -/

/-- The lane maximum of a tile kept as a column and spread back along the rows: at (p, q), the fold of max over row p. -/
theorem rowMaxSpread_apply (L : FVec Ideal ⟨2, ![a, b]⟩ .f32)
    (hr : Shape.Reduces ⟨2, ![a, b]⟩ [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩)
    (hs : (⟨2, ![a, 1]⟩ : Shape).Broadcasts ⟨2, ![a, b]⟩) (p : Fin a) (q : Fin b) :
    broadcastTo ⟨2, ![a, b]⟩ (shapeCast ⟨2, ![a, 1]⟩ (multiReduction (F := Ideal) .maximumf [1] ⟨1, ![a]⟩ L 0xFF800000#32 hr hφ hacc) hc) hs (ix2 p q)
      = (Finset.univ : Finset (Fin b)).fold max lowest (fun k => L (ix2 p k)) := by
  refine (broadcastTo_apply _ hs (ix2 p q) (ix2 p (0 : Fin 1)) fun ax => ?_).trans ?_
  · match ax with
    | ⟨0, _⟩ =>
      show p.val = if a = 1 then 0 else p.val
      split
      · have := p.isLt; omega
      · rfl
    | ⟨1, _⟩ => rfl
  refine (shapeCast_apply _ hc (ix2 p (0 : Fin 1)) (ix1 p) (by
    rw [Shape.rowMajor_val_two, Shape.rowMajor_val_one]
    show p.val = p.val * 1 + 0
    omega)).trans ?_
  refine (Ideal.multiReduction_maximumf_single L 0xFF800000#32 hr hφ hacc (ix1 p)).trans ?_
  exact Finset.fold_congr fun k _ => congrArg L (funext fun ax => Fin.ext (by
    match ax with
    | ⟨0, _⟩ => rfl
    | ⟨1, _⟩ => rfl))

/-- The lane sum of a tile kept as a column: at (p, 0), the sum over row p. -/
theorem rowSumCol_apply (E : FVec Ideal ⟨2, ![a, b]⟩ .f32)
    (hr : Shape.Reduces ⟨2, ![a, b]⟩ [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) :
    shapeCast ⟨2, ![a, 1]⟩ (multiReduction (F := Ideal) .add [1] ⟨1, ![a]⟩ E 0x00000000#32 hr hφ hacc) hc (ix2 p (0 : Fin 1))
      = ∑ k : Fin b, E (ix2 p k) := by
  refine (shapeCast_apply _ hc (ix2 p (0 : Fin 1)) (ix1 p) (by
    rw [Shape.rowMajor_val_two, Shape.rowMajor_val_one]
    show p.val = p.val * 1 + 0
    omega)).trans ?_
  refine (Ideal.multiReduction_add_single E 0x00000000#32 hr hφ hacc (ix1 p)).trans ?_
  exact Finset.sum_congr rfl fun k _ => congrArg E (funext fun ax => Fin.ext (by
    match ax with
    | ⟨0, _⟩ => rfl
    | ⟨1, _⟩ => rfl))

/-- A column spread along the rows reads the column. -/
theorem spread_apply {α : Type} (v : (⟨2, ![a, 1]⟩ : Shape).Idx → α)
    (hs : (⟨2, ![a, 1]⟩ : Shape).Broadcasts ⟨2, ![a, b]⟩) (p : Fin a) (q : Fin b) :
    broadcastTo ⟨2, ![a, b]⟩ v hs (ix2 p q) = v (ix2 p (0 : Fin 1)) := by
  refine broadcastTo_apply v hs (ix2 p q) (ix2 p (0 : Fin 1)) fun ax => ?_
  match ax with
  | ⟨0, _⟩ =>
    show p.val = if a = 1 then 0 else p.val
    split
    · have := p.isLt; omega
    · rfl
  | ⟨1, _⟩ => rfl

/-- The vector-unit computation, entry by entry, is the function above. -/
theorem tile_apply (X : FVec Ideal ⟨2, ![a, b]⟩ .f32) (β : FVec Ideal ⟨2, ![1, b]⟩ .f32)
    (hx : (⟨2, ![a, b]⟩ : Shape).ShapeCasts ⟨2, ![a, b]⟩) (hb : (⟨2, ![1, b]⟩ : Shape).ShapeCasts ⟨2, ![1, b]⟩)
    (hbb : (⟨2, ![1, b]⟩ : Shape).Broadcasts ⟨2, ![a, b]⟩)
    (hr : Shape.Reduces ⟨2, ![a, b]⟩ [1] ⟨1, ![a]⟩) (hφ hφ' : FKind.Formats .f32)
    (hmax : (0xFF800000#32 : BitVec 32) = FKind.maximumf.neutral .f32 hφ)
    (hadd : (0x00000000#32 : BitVec 32) = FKind.add.neutral .f32 hφ')
    (hc : (⟨1, ![a]⟩ : Shape).ShapeCasts ⟨2, ![a, 1]⟩)
    (hs : (⟨2, ![a, 1]⟩ : Shape).Broadcasts ⟨2, ![a, b]⟩) (p : Fin a) (q : Fin b) :
    (have L : FVec Ideal ⟨2, ![a, b]⟩ .f32 := addf (shapeCast ⟨2, ![a, b]⟩ X hx) (broadcastTo ⟨2, ![a, b]⟩ (shapeCast ⟨2, ![1, b]⟩ β hb) hbb)
     have S : FVec Ideal ⟨2, ![a, b]⟩ .f32 := subf L (broadcastTo ⟨2, ![a, b]⟩ (shapeCast ⟨2, ![a, 1]⟩ (multiReduction (F := Ideal) .maximumf [1] ⟨1, ![a]⟩ L 0xFF800000#32 hr hφ hmax) hc) hs)
     subf S (broadcastTo ⟨2, ![a, b]⟩ (log (shapeCast ⟨2, ![a, 1]⟩ (multiReduction (F := Ideal) .add [1] ⟨1, ![a]⟩ (exp S) 0x00000000#32 hr hφ' hadd) hc)) hs)) (ix2 p q)
      = logSoftmax X β (ix2 p q) := by
  have hL : ∀ k : Fin b, addf (shapeCast ⟨2, ![a, b]⟩ X hx) (broadcastTo ⟨2, ![a, b]⟩ (shapeCast ⟨2, ![1, b]⟩ β hb) hbb) (ix2 p k) = logit X β p k :=
    fun k => congrArg₂ (· + ·) (congrFun (shapeCast_self X hx) (ix2 p k))
      ((broadcastTo_1b_ab_apply _ hbb p k).trans (congrFun (shapeCast_self β hb) (ix2 (0 : Fin 1) k)))
  have hM : ∀ k : Fin b, broadcastTo ⟨2, ![a, b]⟩ (shapeCast ⟨2, ![a, 1]⟩ (multiReduction (F := Ideal) .maximumf [1] ⟨1, ![a]⟩
      (addf (shapeCast ⟨2, ![a, b]⟩ X hx) (broadcastTo ⟨2, ![a, b]⟩ (shapeCast ⟨2, ![1, b]⟩ β hb) hbb)) 0xFF800000#32 hr hφ hmax) hc) hs (ix2 p k) = rowMax X β p :=
    fun k => (rowMaxSpread_apply _ hr hφ hmax hc hs p k).trans (Finset.fold_congr fun j _ => hL j)
  have hS : ∀ k : Fin b, subf (addf (shapeCast ⟨2, ![a, b]⟩ X hx) (broadcastTo ⟨2, ![a, b]⟩ (shapeCast ⟨2, ![1, b]⟩ β hb) hbb))
      (broadcastTo ⟨2, ![a, b]⟩ (shapeCast ⟨2, ![a, 1]⟩ (multiReduction (F := Ideal) .maximumf [1] ⟨1, ![a]⟩
        (addf (shapeCast ⟨2, ![a, b]⟩ X hx) (broadcastTo ⟨2, ![a, b]⟩ (shapeCast ⟨2, ![1, b]⟩ β hb) hbb)) 0xFF800000#32 hr hφ hmax) hc) hs) (ix2 p k)
        = shifted X β p k :=
    fun k => congrArg₂ (· - ·) (hL k) (hM k)
  rw [logSoftmax_apply]
  refine congrArg₂ (· - ·) (hS q) ?_
  refine (spread_apply _ hs p q).trans ?_
  refine congrArg Ideal.log ?_
  refine (rowSumCol_apply _ hr hφ' hadd hc p).trans ?_
  exact Finset.sum_congr rfl fun k _ => congrArg Ideal.exp (hS k)

/-! ## The host form -/

/-- The host's maximum over axis 1 of a table, at p: the fold of max over row p from the initial value. -/
theorem hostRowMax_apply (L : FVec Ideal ⟨2, ![a, b]⟩ .f32) (init : (⟨0, ![]⟩ : Shape).Idx → EReal)
    (h' : Shape.ReducesTo ⟨2, ![a, b]⟩ [1] ⟨1, ![a]⟩) (h : Shape.Reduces ⟨2, ![a, b]⟩ [1] ⟨1, ![a]⟩)
    (hu : 0 < (⟨0, ![]⟩ : Shape).numel) (p : Fin a) :
    Host.reduce FloatOps.maximumf L init h' hu (ix1 p)
      = (Finset.univ : Finset (Fin b)).fold max (init (Shape.Idx.first hu)) (fun k => L (ix2 p k)) := by
  refine (Host.reduce_eq_fold_single FloatOps.maximumf L init h' h hu (ix1 p)).trans ?_
  exact Finset.fold_congr fun k _ => congrArg L (funext fun ax => Fin.ext (by
    match ax with
    | ⟨0, _⟩ => rfl
    | ⟨1, _⟩ => rfl))

/-- A maximum of a value with a fold of max that starts at that value is the fold. -/
theorem max_fold_self (c : EReal) (f : Fin b → EReal) :
    max c ((Finset.univ : Finset (Fin b)).fold max c f) = (Finset.univ : Finset (Fin b)).fold max c f :=
  max_eq_right ((Finset.le_fold_max c).mpr (Or.inl le_rfl))

end Cert.RowSoftmax

end
-- ==== Proof.Spec.lean ====
/-
  What the two programs compute after the neighbour aggregation, over the extended reals, as functions of whole arrays.
  From the aggregated table A : [N, C] and the bias row β : [1, C], the hidden layer is the rectified sum
  E (r, k) = max (A (r, k) + β (0, k)) 0; the class scores are the plain product E · W : [N, K], and the result is
  the logarithm of the row-wise softmax of the scores biased by γ : [1, K]. A vector b : [n] laid as the row [1, n]
  reads b k at (0, k).
-/
import Idealize.ShloMosaic.Lib.ValueIdx
import Idealize.ShloMosaic.PureOps.Ideal.Laws
import proofs.«161004_j27032524161265_1_alg».proof.Proof.LibPlainProduct
import proofs.«161004_j27032524161265_1_alg».proof.Proof.LibRowSoftmax

noncomputable section

namespace Cert.Gcn

open Idealize.ShloMosaic Idealize.ShloMosaic.ValueIdx

variable {N C K : ℕ}

/-- The word of zero, never evaluated. -/
abbrev zero : EReal := Ideal.ofBits .f32 0x00000000#32

/-- A vector laid as a table of one row. -/
def row {n : ℕ} (b : FVec Ideal ⟨1, ![n]⟩ .f32) : FVec Ideal ⟨2, ![1, n]⟩ .f32 := fun i => b (ix1 (i 1))

theorem row_apply {n : ℕ} (b : FVec Ideal ⟨1, ![n]⟩ .f32) (k : Fin n) : row b (ix2 (0 : Fin 1) k) = b (ix1 k) := rfl

/-- The hidden layer: the aggregated table plus the bias row, rectified. -/
def hidden (A : FVec Ideal ⟨2, ![N, C]⟩ .f32) (β : FVec Ideal ⟨2, ![1, C]⟩ .f32) : FVec Ideal ⟨2, ![N, C]⟩ .f32 :=
  fun i => max (A i + β (ix2 (0 : Fin 1) (i 1))) zero

theorem hidden_apply (A : FVec Ideal ⟨2, ![N, C]⟩ .f32) (β : FVec Ideal ⟨2, ![1, C]⟩ .f32) (r : Fin N) (k : Fin C) :
    hidden A β (ix2 r k) = max (A (ix2 r k) + β (ix2 (0 : Fin 1) k)) zero := rfl

/-- The class scores' log-probabilities: the row-wise log-softmax of the product with the weights, biased. -/
def logprob (E : FVec Ideal ⟨2, ![N, C]⟩ .f32) (W : FVec Ideal ⟨2, ![C, K]⟩ .f32) (γ : FVec Ideal ⟨2, ![1, K]⟩ .f32) :
    FVec Ideal ⟨2, ![N, K]⟩ .f32 :=
  RowSoftmax.logSoftmax (PlainProduct.prod E W) γ

/-- Entry (r, q) of the log-probabilities reads row r of the hidden table only: a tile of rows that agrees with the
    table on that row gives the same entry. -/
theorem logprob_row {N' : ℕ} (E : FVec Ideal ⟨2, ![N, C]⟩ .f32) (E' : FVec Ideal ⟨2, ![N', C]⟩ .f32)
    (W : FVec Ideal ⟨2, ![C, K]⟩ .f32) (γ : FVec Ideal ⟨2, ![1, K]⟩ .f32) (r : Fin N) (r' : Fin N') (q : Fin K)
    (h : ∀ k, E (ix2 r k) = E' (ix2 r' k)) :
    logprob E W γ (ix2 r q) = logprob E' W γ (ix2 r' q) := by
  unfold logprob
  refine RowSoftmax.logSoftmax_row _ _ γ r r' q fun k => ?_
  rw [PlainProduct.prod_apply, PlainProduct.prod_apply]
  exact Finset.sum_congr rfl fun x _ => by rw [h x]

end Cert.Gcn

end
-- ==== Proof.Region1.lean ====
/-
  The head kernel's two result arrays. Each grid point t takes rows 2000·t … 2000·t + 1999 of the aggregated table
  A : [100000, 64] with the whole bias row β : [1, 64], weight table W : [64, 40] and bias row γ : [1, 40].
  Its first store is the rectified sum max (A + β) 0 of those rows; its second is the row-wise log-softmax of the
  tile's product with W plus γ, the narrowing of the product's operands being the identity over the extended reals.
  Both are row-local, so each tile is the block of one whole-array function — the hidden table, and the
  log-probabilities of the hidden table — and the fifty tiles cover each result array.
-/
import proofs.«161004_j27032524161265_1_alg».proof.Proof.Gen.KernelIdeal.Frame
import proofs.«161004_j27032524161265_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The region's four input arrays as it finds them. -/
abbrev agg (c : Dev nD) : Vec Ideal S100000x64 .f32 := V c main_v45
abbrev brow (c : Dev nD) : Vec Ideal S1x64 .f32 := V c main_v46
abbrev wts (c : Dev nD) : Vec Ideal S64x40 .f32 := V c main_arg4
abbrev crow (c : Dev nD) : Vec Ideal S1x40 .f32 := V c main_v47

/-! ## The two payloads at an entry -/

/-- The first store's tile is the hidden layer of the tile of rows. -/
theorem pay1_eq (v0 : Vec Ideal S2000x64 .f32) (v2 : Vec Ideal S1x64 .f32) :
    k1_pay1 (F := Ideal) v0 v2 = Gcn.hidden (N := 2000) (C := 64) v0 v2 := by
  funext j
  obtain ⟨p, k, rfl⟩ : ∃ (p : Fin 2000) (k : Fin 64), j = ix2 p k := ⟨j 0, j 1, eq_ix2 j⟩
  unfold k1_pay1
  rw [Gcn.hidden_apply]
  refine congrArg₂ max (congrArg₂ (· + ·) ?_ ?_) rfl
  · exact congrFun (shapeCast_self v0 shapeCasts_S2000x64_S2000x64) (ix2 p k)
  · exact (broadcastTo_1b_ab_apply _ broadcasts_S1x64_S2000x64 p k).trans
      (congrFun (shapeCast_self v2 shapeCasts_S1x64_S1x64) (ix2 (0 : Fin 1) k))

/-- A table plus a bias row, less its lane maximum, less the logarithm of the lane sum of exponentials: the row-wise
    log-softmax of the table biased by the row (the vector-unit form, the table given as it is). -/
theorem softmax_tile {a b : ℕ} (Y : FVec Ideal ⟨2, ![a, b]⟩ .f32) (β : FVec Ideal ⟨2, ![1, b]⟩ .f32)
    (hb : (⟨2, ![1, b]⟩ : Shape).ShapeCasts ⟨2, ![1, b]⟩)
    (hbb : (⟨2, ![1, b]⟩ : Shape).Broadcasts ⟨2, ![a, b]⟩)
    (hr : Shape.Reduces ⟨2, ![a, b]⟩ [1] ⟨1, ![a]⟩) (hφ hφ' : FKind.Formats .f32)
    (hmax : (0xFF800000#32 : BitVec 32) = FKind.maximumf.neutral .f32 hφ)
    (hadd : (0x00000000#32 : BitVec 32) = FKind.add.neutral .f32 hφ')
    (hc : (⟨1, ![a]⟩ : Shape).ShapeCasts ⟨2, ![a, 1]⟩)
    (hs : (⟨2, ![a, 1]⟩ : Shape).Broadcasts ⟨2, ![a, b]⟩) (p : Fin a) (q : Fin b) :
    (subf (subf (addf Y (broadcastTo ⟨2, ![a, b]⟩ (shapeCast ⟨2, ![1, b]⟩ β hb) hbb))
        (broadcastTo ⟨2, ![a, b]⟩ (shapeCast ⟨2, ![a, 1]⟩ (multiReduction (F := Ideal) .maximumf [1] ⟨1, ![a]⟩
          (addf Y (broadcastTo ⟨2, ![a, b]⟩ (shapeCast ⟨2, ![1, b]⟩ β hb) hbb)) 0xFF800000#32 hr hφ hmax) hc) hs))
      (broadcastTo ⟨2, ![a, b]⟩ (log (shapeCast ⟨2, ![a, 1]⟩ (multiReduction (F := Ideal) .add [1] ⟨1, ![a]⟩
        (exp (subf (addf Y (broadcastTo ⟨2, ![a, b]⟩ (shapeCast ⟨2, ![1, b]⟩ β hb) hbb))
          (broadcastTo ⟨2, ![a, b]⟩ (shapeCast ⟨2, ![a, 1]⟩ (multiReduction (F := Ideal) .maximumf [1] ⟨1, ![a]⟩
            (addf Y (broadcastTo ⟨2, ![a, b]⟩ (shapeCast ⟨2, ![1, b]⟩ β hb) hbb)) 0xFF800000#32 hr hφ hmax) hc) hs)))
        0x00000000#32 hr hφ' hadd) hc)) hs)) (ix2 p q)
      = RowSoftmax.logSoftmax Y β (ix2 p q) := by
  have h := RowSoftmax.tile_apply Y β (rfl : (⟨2, ![a, b]⟩ : Shape).ShapeCasts ⟨2, ![a, b]⟩) hb hbb hr hφ hφ' hmax hadd hc hs p q
  rw [shapeCast_self Y (rfl : (⟨2, ![a, b]⟩ : Shape).ShapeCasts ⟨2, ![a, b]⟩)] at h
  exact h

/-- The product of the hidden tile with the weights into the zero accumulator is the plain product. -/
theorem mm_eq (E : FVec Ideal S2000x64 .f32) (v10 : Vec Ideal S64x40 .f32) :
    matmul (F := Ideal) dot_S2000x64_S64x40_S2000x40_1_0_0_1_n_n none (truncf (F := Ideal) .bf16 E bitsLt_bf16_f32)
        (truncf (F := Ideal) .bf16 v10 bitsLt_bf16_f32) (constant (F := Ideal) S2000x40 .f32 0x00000000#32)
      = PlainProduct.prod (M := 2000) (K := 64) (N := 40) (φ₁ := .f32) (φ₂ := .f32) E v10 := by
  funext j
  obtain ⟨p, q, rfl⟩ : ∃ (p : Fin 2000) (q : Fin 40), j = ix2 p q := ⟨j 0, j 1, eq_ix2 j⟩
  exact PlainProduct.matmul_zero_apply (M := 2000) (K := 64) (N := 40) none
    (truncf (F := Ideal) .bf16 E bitsLt_bf16_f32) (truncf (F := Ideal) .bf16 v10 bitsLt_bf16_f32) p q

/-- The second store's tile is the log-probabilities of the hidden tile. -/
theorem pay2_apply (v0 : Vec Ideal S2000x64 .f32) (v2 : Vec Ideal S1x64 .f32) (v10 : Vec Ideal S64x40 .f32) (v13 : Vec Ideal S1x40 .f32)
    (p : Fin 2000) (q : Fin 40) :
    k1_pay2 (F := Ideal) v0 v2 v10 v13 (ix2 p q)
      = Gcn.logprob (N := 2000) (C := 64) (K := 40) (Gcn.hidden (N := 2000) (C := 64) v0 v2) v10 v13 (ix2 p q) := by
  unfold k1_pay2 Gcn.logprob
  dsimp only
  rw [pay1_eq, mm_eq]
  exact softmax_tile (a := 2000) (b := 40) _ v13 shapeCasts_S1x40_S1x40 broadcasts_S1x40_S2000x40 reduces_S2000x40_S2000
    (.inl rfl) (.inl rfl) rfl rfl shapeCasts_S2000_S2000x1 broadcasts_S2000x1_S2000x40 p q

/-! ## The blocks -/

/-- The printed index maps over the grid: the row blocks move with the point, the small tables stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 50 := Nat.lt_of_lt_of_eq t.isLt N_1

/-- The three small tables' blocks are the tables. -/
theorem blk1_eq (c : Dev nD) (t : Fin cfg1.N) : iblk1 V c 1 t = brow V c := by
  obtain ⟨-, -, e10, e11, -⟩ := idx_facts t
  funext y
  show V c main_v46 (((cfg1.win 1).blk t).view.emb y) = V c main_v46 y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 64 + 1 * (y 1).val = (y 1).val; omega
theorem blk2_eq (c : Dev nD) (t : Fin cfg1.N) : iblk1 V c 2 t = wts V c := by
  obtain ⟨-, -, -, -, e20, e21, -⟩ := idx_facts t
  funext y
  show V c main_arg4 (((cfg1.win 2).blk t).view.emb y) = V c main_arg4 y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 40 + 1 * (y 1).val = (y 1).val; omega
theorem blk3_eq (c : Dev nD) (t : Fin cfg1.N) : iblk1 V c 3 t = crow V c := by
  obtain ⟨-, -, -, -, -, -, e30, e31, -⟩ := idx_facts t
  funext y
  show V c main_v47 (((cfg1.win 3).blk t).view.emb y) = V c main_v47 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 40 + 1 * (y 1).val = (y 1).val; omega

/-- Row p of the tile of rows at point t is row 2000·t + p of the aggregated table. -/
theorem blk0_apply (c : Dev nD) (t : Fin cfg1.N) (p : Fin 2000) (k : Fin 64) :
    iblk1 V c 0 t (ix2 p k) = agg V c (ix2 (⟨2000 * t.val + p.val, by have := t_lt t; omega⟩ : Fin 100000) k) := by
  obtain ⟨e00, e01, -⟩ := idx_facts t
  show V c main_v45 (((cfg1.win 0).blk t).view.emb (ix2 p k)) = V c main_v45 _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 64 + 1 * k.val = k.val; omega

/-- Entry (p, k) of output block 4 at point t sits at (2000·t + p, k) of its array; the same for block 5. -/
theorem emb4_eq (t : Fin cfg1.N) (p : Fin 2000) (k : Fin 64) :
    ((cfg1.win 4).blk t).view.emb (ix2 p k) = (ix2 (⟨2000 * t.val + p.val, by have := t_lt t; omega⟩ : Fin 100000) k : S100000x64.Idx) := by
  obtain ⟨-, -, -, -, -, -, -, -, e40, e41, -⟩ := idx_facts t
  funext a; apply Fin.ext
  match a with
  | ⟨0, _⟩ => show win1_4.index t (0 : Fin 2) * 2000 + 1 * p.val = 2000 * t.val + p.val; omega
  | ⟨1, _⟩ => show win1_4.index t (1 : Fin 2) * 64 + 1 * k.val = k.val; omega
theorem emb5_eq (t : Fin cfg1.N) (p : Fin 2000) (q : Fin 40) :
    ((cfg1.win 5).blk t).view.emb (ix2 p q) = (ix2 (⟨2000 * t.val + p.val, by have := t_lt t; omega⟩ : Fin 100000) q : S100000x40.Idx) := by
  obtain ⟨-, -, -, -, -, -, -, -, -, -, e50, e51⟩ := idx_facts t
  funext a; apply Fin.ext
  match a with
  | ⟨0, _⟩ => show win1_5.index t (0 : Fin 2) * 2000 + 1 * p.val = 2000 * t.val + p.val; omega
  | ⟨1, _⟩ => show win1_5.index t (1 : Fin 2) * 40 + 1 * q.val = q.val; omega

/-- The hidden table of the whole aggregated table, and its log-probabilities. -/
abbrev hiddenAll (c : Dev nD) : FVec Ideal S100000x64 .f32 := Gcn.hidden (N := 100000) (C := 64) (agg V c) (brow V c)
abbrev logprobAll (c : Dev nD) : FVec Ideal S100000x40 .f32 :=
  Gcn.logprob (N := 100000) (C := 64) (K := 40) (hiddenAll V c) (wts V c) (crow V c)

/-- What point t writes back through window 4 is block t of the hidden table. -/
theorem flushed4_eq (c : Dev nD) (t : Fin cfg1.N) :
    (dat1 V c).flushed 4 t = ((cfg1.win 4).blk t).view.read (Elt Ideal) (hiddenAll V c) := by
  show (cfg1.win 4).cut (grid1.coords t) ((dat1 V c).after 4 t) = _
  rw [after1_4]
  unfold out1_4
  rw [View.canon_unit_zero hz]
  simp only [View.ld_unit_zero (S := S2000x64) hz, View.ld_unit_zero (S := S1x64) hz]
  rw [pay1_eq, blk1_eq]
  funext j
  obtain ⟨p, k, rfl⟩ : ∃ (p : Fin 2000) (k : Fin 64), j = ix2 p k := ⟨j 0, j 1, eq_ix2 j⟩
  show Gcn.hidden (N := 2000) (C := 64) (iblk1 V c 0 t) (brow V c) (ix2 p k)
    = Gcn.hidden (N := 100000) (C := 64) (agg V c) (brow V c) (((cfg1.win 4).blk t).view.emb (ix2 p k))
  rw [emb4_eq, Gcn.hidden_apply, Gcn.hidden_apply, blk0_apply]

/-- What point t writes back through window 5 is block t of the log-probabilities. -/
theorem flushed5_eq (c : Dev nD) (t : Fin cfg1.N) :
    (dat1 V c).flushed 5 t = ((cfg1.win 5).blk t).view.read (Elt Ideal) (logprobAll V c) := by
  show (cfg1.win 5).cut (grid1.coords t) ((dat1 V c).after 5 t) = _
  rw [after1_5]
  unfold out1_5
  rw [View.canon_unit_zero hz]
  simp only [View.ld_unit_zero (S := S2000x64) hz, View.ld_unit_zero (S := S1x64) hz, View.ld_unit_zero (S := S64x40) hz,
    View.ld_unit_zero (S := S1x40) hz]
  rw [blk1_eq, blk2_eq, blk3_eq]
  funext j
  obtain ⟨p, q, rfl⟩ : ∃ (p : Fin 2000) (q : Fin 40), j = ix2 p q := ⟨j 0, j 1, eq_ix2 j⟩
  show k1_pay2 (F := Ideal) (iblk1 V c 0 t) (brow V c) (wts V c) (crow V c) (ix2 p q)
    = Gcn.logprob (N := 100000) (C := 64) (K := 40) (Gcn.hidden (N := 100000) (C := 64) (agg V c) (brow V c)) (wts V c) (crow V c)
        (((cfg1.win 5).blk t).view.emb (ix2 p q))
  refine (pay2_apply _ _ _ _ p q).trans ?_
  rw [emb5_eq]
  refine Gcn.logprob_row _ _ _ _ p _ q fun k => ?_
  rw [Gcn.hidden_apply, Gcn.hidden_apply, blk0_apply]

/-! ## The cover -/

theorem mem_blk4 (t : Fin cfg1.N) (i : S100000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v48_0).slice (win1_4.rect t)).set ↔ _
  rw [View.set_slice_whole, Rect.mem_set_unit]
  exact Iff.rfl
theorem mem_blk5 (t : Fin cfg1.N) (i : S100000x40.Idx) :
    i ∈ ((cfg1.win 5).blk t).view.set ↔ ∀ a : Fin 2, win1_5.index t a * S2000x40.size a ≤ (i a).val ∧ (i a).val < win1_5.index t a * S2000x40.size a + S2000x40.size a := by
  show i ∈ ((View.whole main_v48_1).slice (win1_5.rect t)).set ↔ _
  rw [View.set_slice_whole, Rect.mem_set_unit]
  exact Iff.rfl

theorem cover4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  refine ⟨⟨(i 0).val / 2000, by rw [show cfg1.N = 50 from N_1]; omega⟩, flush1_4 _, ?_⟩
  rw [mem_blk4]
  obtain ⟨-, -, -, -, -, -, -, -, e40, e41, -⟩ := idx_facts ⟨(i 0).val / 2000, by rw [show cfg1.N = 50 from N_1]; omega⟩
  intro a
  match a with
  | ⟨0, _⟩ => show win1_4.index _ (0 : Fin 2) * 2000 ≤ (i 0).val ∧ (i 0).val < win1_4.index _ (0 : Fin 2) * 2000 + 2000; rw [e40]; show (i 0).val / 2000 * 2000 ≤ (i 0).val ∧ (i 0).val < (i 0).val / 2000 * 2000 + 2000; omega
  | ⟨1, _⟩ => show win1_4.index _ (1 : Fin 2) * 64 ≤ (i 1).val ∧ (i 1).val < win1_4.index _ (1 : Fin 2) * 64 + 64; rw [e41]; omega
theorem cover5 (i : S100000x40.Idx) : ∃ t : Fin cfg1.N, (cfg1.win 5).flush t = true ∧ i ∈ ((cfg1.win 5).blk t).view.set := by
  have hi0 : (i 0).val < 100000 := (i 0).isLt
  have hi1 : (i 1).val < 40 := (i 1).isLt
  refine ⟨⟨(i 0).val / 2000, by rw [show cfg1.N = 50 from N_1]; omega⟩, flush1_5 _, ?_⟩
  rw [mem_blk5]
  obtain ⟨-, -, -, -, -, -, -, -, -, -, e50, e51⟩ := idx_facts ⟨(i 0).val / 2000, by rw [show cfg1.N = 50 from N_1]; omega⟩
  intro a
  match a with
  | ⟨0, _⟩ => show win1_5.index _ (0 : Fin 2) * 2000 ≤ (i 0).val ∧ (i 0).val < win1_5.index _ (0 : Fin 2) * 2000 + 2000; rw [e50]; show (i 0).val / 2000 * 2000 ≤ (i 0).val ∧ (i 0).val < (i 0).val / 2000 * 2000 + 2000; omega
  | ⟨1, _⟩ => show win1_5.index _ (1 : Fin 2) * 40 ≤ (i 1).val ∧ (i 1).val < win1_5.index _ (1 : Fin 2) * 40 + 40; rw [e51]; omega

/-- The two result arrays after the region. -/
theorem final4 (c : Dev nD) : (dat1 V c).arrAt 4 cfg1.N = hiddenAll V c :=
  (dat1 V c).arrAt_eq_of_cover 4 _ (fun t _ => flushed4_eq V c t) cover4
theorem final5 (c : Dev nD) : (dat1 V c).arrAt 5 cfg1.N = logprobAll V c :=
  (dat1 V c).arrAt_eq_of_cover 5 _ (fun t _ => flushed5_eq V c t) cover5

end Cert.KernelIdeal.Region1

end
-- ==== Proof.RefValue.lean ====
/-
  The reference's two results as functions of whole arrays, over the extended reals. With h the projected table the
  reference forms (the host's product of the features by the first weight table: a plain sum over the contracted
  coordinate), the aggregation reads h through the same gather, scaling and scatter whatever h is; its sum with the
  bias laid as a row, rectified against the spread zero, is the hidden table; and the host's log-softmax of the
  hidden table's product with the second weights plus the second bias — the row maximum taken once more against the
  lowest value, the maximum and the logarithm of the row sum re-inserted by broadcasts — is the row-wise log-softmax.
-/
import proofs.«161004_j27032524161265_1_alg».proof.Proof.RefRead
import proofs.«161004_j27032524161265_1_alg».proof.Proof.Spec
import Idealize.ShloMosaic.Lib.ValueIdx
import Idealize.ShloMosaic.Lib.ValueLayout
import Idealize.ShloMosaic.Lib.Pipeline.Value

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem

section Chain
variable {F : FTy → Type} [FloatOps F]

/-- The neighbour aggregation with the projected table h a parameter: gather the source rows of h, scale each by its
    edge's normalisation, scatter-add into the target rows of a zero table. -/
def aggOf (h : (⟨S100000x64, .f32⟩ : BufTy).Contents (Elt F)) (x1 : (⟨S2x1600000, .i32⟩ : BufTy).Contents (Elt F)) :
    (⟨S100000x64, .f32⟩ : BufTy).Contents (Elt F) :=
  Host.scatterAdd scatter_S100000x64_S1700000x1_S1700000x64_1_0_0_1 (val_main_v43 (F := F)) (val_main_v44 (F := F) x1)
    (mulf (Host.gather gather_S100000x64_S1700000x1_S1700000x64_1_0_n_n_0_1_164 h (val_main_v38 (F := F) x1)) (val_main_v41 (F := F) x1))

/-- The reference's aggregated table is the aggregation of its own projected table. -/
theorem v45_eq (x0 : (⟨S100000x128, .f32⟩ : BufTy).Contents (Elt F)) (x1 : (⟨S2x1600000, .i32⟩ : BufTy).Contents (Elt F))
    (x2 : (⟨S128x64, .f32⟩ : BufTy).Contents (Elt F)) :
    val_main_v45 (F := F) x0 x1 x2 = aggOf (val_main_v32 (F := F) x0 x2) x1 := by
  unfold val_main_v45 val_main_v42 val_main_v39 aggOf
  rfl

end Chain

/-- The host's product of the features by the first weights is the plain product. -/
theorem v32_eq (x0 : (⟨S100000x128, .f32⟩ : BufTy).Contents (Elt Ideal)) (x2 : (⟨S128x64, .f32⟩ : BufTy).Contents (Elt Ideal)) :
    val_main_v32 (F := Ideal) x0 x2 = PlainProduct.prod (M := 100000) (K := 128) (N := 64) (φ₁ := .f32) (φ₂ := .f32) x0 x2 := by
  unfold val_main_v32
  exact PlainProduct.dotGeneral_eq_prod (M := 100000) (K := 128) (N := 64) (φ₁ := .f32) (φ₂ := .f32) none x0 x2

/-- The first result: the hidden table of the aggregated table and the first bias laid as a row. -/
theorem v49_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal)) :
    val_main_v49 (F := Ideal) x0 x1 x2 x3
      = Gcn.hidden (N := 100000) (C := 64) (val_main_v45 (F := Ideal) x0 x1 x2) (Gcn.row (n := 64) x3) := by
  funext i
  obtain ⟨r, k, rfl⟩ : ∃ (r : Fin 100000) (k : Fin 64), i = ix2 r k := ⟨i 0, i 1, eq_ix2 i⟩
  rw [val_main_v49_apply, val_main_v48_apply, val_main_v47_apply, val_main_v46_apply, val_main_call1_v0_apply,
    val_main_call1_cst_apply, Gcn.hidden_apply, Gcn.row_apply]
  have e : idx_main_v46 (idx_main_v47 (ix2 r k)) = (ix1 k : S64.Idx) :=
    funext fun a => Fin.ext (by match a with | ⟨0, _⟩ => rfl)
  rw [e]
  rfl

/-- The second result: the log-probabilities of the hidden table under the second weights and bias. -/
theorem v54_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x40, .f32⟩ : BufTy).Contents (Elt Ideal)) (x5 : (⟨S40, .f32⟩ : BufTy).Contents (Elt Ideal)) :
    val_main_v54 (F := Ideal) x0 x1 x2 x3 x4 x5
      = Gcn.logprob (N := 100000) (C := 64) (K := 40) (val_main_v49 (F := Ideal) x0 x1 x2 x3) x4 (Gcn.row (n := 40) x5) := by
  funext i
  obtain ⟨r, q, rfl⟩ : ∃ (r : Fin 100000) (q : Fin 40), i = ix2 r q := ⟨i 0, i 1, eq_ix2 i⟩
  -- the biased scores along row r
  have hL : ∀ k : Fin 40, val_main_v53 (F := Ideal) x0 x1 x2 x3 x4 x5 (ix2 r k)
      = RowSoftmax.logit (PlainProduct.prod (M := 100000) (K := 64) (N := 40) (φ₁ := .f32) (φ₂ := .f32) (val_main_v49 (F := Ideal) x0 x1 x2 x3) x4) (Gcn.row (n := 40) x5) r k := by
    intro k
    rw [val_main_v53_apply, val_main_v50_apply, val_main_v52_apply, val_main_v51_apply]
    unfold RowSoftmax.logit
    rw [PlainProduct.prod_apply, Gcn.row_apply]
    have e5 : idx_main_v51 (idx_main_v52 (ix2 r k)) = (ix1 k : S40.Idx) :=
      funext fun a => Fin.ext (by match a with | ⟨0, _⟩ => rfl)
    rw [e5]
    refine congrArg₂ (· + ·) (Finset.sum_congr rfl fun x _ => ?_) rfl
    have el : lidx_main_v50 (ix2 r k) x = (ix2 r x : S100000x64.Idx) :=
      funext fun a => Fin.ext (by match a with | ⟨0, _⟩ => rfl | ⟨1, _⟩ => rfl)
    have er : ridx_main_v50 (ix2 r k) x = (ix2 x k : S64x40.Idx) :=
      funext fun a => Fin.ext (by match a with | ⟨0, _⟩ => rfl | ⟨1, _⟩ => rfl)
    rw [el, er]
  -- the row maximum, taken once more against the lowest value
  have hM : val_main_call2_v2 (F := Ideal) x0 x1 x2 x3 x4 x5 (ix1 r)
      = RowSoftmax.rowMax (PlainProduct.prod (M := 100000) (K := 64) (N := 40) (φ₁ := .f32) (φ₂ := .f32) (val_main_v49 (F := Ideal) x0 x1 x2 x3) x4) (Gcn.row (n := 40) x5) r := by
    rw [val_main_call2_v2_apply, val_main_call2_v1_apply, val_main_call2_cst_0_apply]
    unfold val_main_call2_v0
    rw [RowSoftmax.hostRowMax_apply (a := 100000) (b := 40) (val_main_v53 (F := Ideal) x0 x1 x2 x3 x4 x5) (val_main_call2_cst (F := Ideal))
      reducesTo_S100000x40_S100000_d1 (by decide) h_S_ r]
    rw [val_main_call2_cst_apply]
    unfold RowSoftmax.rowMax
    refine (RowSoftmax.max_fold_self _ _).trans ?_
    exact Finset.fold_congr fun k _ => hL k
  -- a biased score less its row's maximum
  have hS : ∀ k : Fin 40, val_main_call2_v5 (F := Ideal) x0 x1 x2 x3 x4 x5 (ix2 r k)
      = RowSoftmax.shifted (PlainProduct.prod (M := 100000) (K := 64) (N := 40) (φ₁ := .f32) (φ₂ := .f32) (val_main_v49 (F := Ideal) x0 x1 x2 x3) x4) (Gcn.row (n := 40) x5) r k := by
    intro k
    rw [val_main_call2_v5_apply, val_main_call2_v4_apply, val_main_call2_v3_apply, hL k]
    have e3 : idx_main_call2_v3 (idx_main_call2_v4 (ix2 r k)) = (ix1 r : S100000.Idx) :=
      funext fun a => Fin.ext (by match a with | ⟨0, _⟩ => rfl)
    rw [e3, hM]
    rfl
  rw [val_main_v54_apply, hS q, val_main_call2_v10_apply, val_main_call2_v9_apply, val_main_call2_v8_apply,
    val_main_call2_v7_apply, val_main_call2_cst_1_apply]
  unfold Gcn.logprob
  rw [RowSoftmax.logSoftmax_apply]
  refine congrArg₂ (· - ·) rfl ?_
  have e8 : idx_main_call2_v8 (idx_main_call2_v10 (ix2 r q)) = (ix1 r : S100000.Idx) :=
    funext fun a => Fin.ext (by match a with | ⟨0, _⟩ => rfl)
  rw [e8]
  simp only [Ideal.hostUnary_log_def, Ideal.ofBits_def, Ideal.ofBits_zero_f32, zero_add]
  refine congrArg Ideal.log (Finset.sum_congr rfl fun k _ => ?_)
  have e7 : idx_main_call2_v7 (ix1 r) k = (ix2 r k : S100000x40.Idx) :=
    funext fun a => Fin.ext (by match a with | ⟨0, _⟩ => rfl | ⟨1, _⟩ => rfl)
  rw [e7, val_main_call2_v6_apply, hS k]
  exact Ideal.hostUnary_exp_def (φ := .f32) _

end Cert.ReferenceIdeal.RefValue

end
-- ==== Proof.KernelValue.lean ====
/-
  The kernel program's two result arrays as functions of the argument arrays, over the extended reals.
  Before the first kernel region the host forms, from the edge list alone, the source and target index vectors (each
  edge row followed by the self-loops 0 … 99999) and the per-edge normalisation (the product of the reciprocal square
  roots of the two end points' degrees); the first region leaves the projected table, the product of the features by
  the first weights; the host then gathers the projected rows at the sources, scales them and scatter-adds them at
  the targets, and lays the two biases as rows; the second region leaves the hidden table of that aggregation and its
  log-probabilities. The host operations on both sides of the first region are, operation for operation, the ones the
  reference applies, so they are carried as one function of the projected table and the edge list, never opened.
-/
import proofs.«161004_j27032524161265_1_alg».proof.Proof.Gen.KernelIdeal.Frame
import proofs.«161004_j27032524161265_1_alg».proof.Proof.Region0
import proofs.«161004_j27032524161265_1_alg».proof.Proof.Region1
import proofs.«161004_j27032524161265_1_alg».proof.Proof.RefValue
import Idealize.ShloMosaic.Lib.StableHlo.Run
import Idealize.ShloMosaic.Lib.Pipeline.Value
import Idealize.ShloMosaic.Lib.ValueIdx

set_option maxRecDepth 16384

noncomputable section

namespace Cert.KernelIdeal.Result

open Cert.KernelIdeal Cert.KernelIdeal.Gen
open Idealize.ShloMosaic Idealize.ShloMosaic.TcCoe Idealize.ShloMosaic.ValueIdx Idealize.ShloMosaic.StableHlo
open Idealize.SL.Sem

/-! ## The host operations around the first region, at any float family -/

section Chain
variable {F : FTy → Type} [FloatOps F]
variable (m : (ℓ : Loc nD τ sig) → Buf (Elt F) ℓ) (ρ : Dev nD → PrngReg)

/-- The source index vector when the first region is entered. -/
theorem src_eq (c : Dev nD) :
    W3 m ρ c (Proc.devRef .tc main_v3) = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

/-- The target index vector. -/
theorem dst_eq (c : Dev nD) :
    W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  after_results_simp
  rfl

/-- The per-edge normalisation. -/
theorem nrm_eq (c : Dev nD) :
    W3 m ρ c (Proc.devRef .tc main_v31) = Cert.ReferenceIdeal.ReadP.val_main_v31 (F := F) (m ((c : Thread nD τ).loc main_arg1)) := by
  show StableHlo.after hostOps0_2 (StableHlo.after hostOps0_1 (StableHlo.after hostOps0 (W0 m ρ c))) (Proc.devRef .tc main_v31) = _
  after_results_simp
  rfl

/-- The aggregated table when the second region is entered: the shared aggregation of the projected table the first
    region left. -/
theorem agg_eq (c : Dev nD) :
    W5 m ρ c (Proc.devRef .tc main_v45)
      = Cert.ReferenceIdeal.RefValue.aggOf (F := F) (W4 m ρ c (Proc.devRef .tc main_v32)) (m ((c : Thread nD τ).loc main_arg1)) := by
  show StableHlo.after hostOps1 (W4 m ρ c) (Proc.devRef .tc main_v45) = _
  after_results_simp
  rw [W4_of_ne m ρ c main_v3 (by decide), W4_of_ne m ρ c main_v6 (by decide), W4_of_ne m ρ c main_v31 (by decide),
    src_eq, dst_eq, nrm_eq]
  rfl

/-- No host operation writes an argument array: each reads as launched when the first region is entered. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp

/-- The second weight table when the second region is entered. -/
theorem W5_arg4 (c : Dev nD) : W5 m ρ c (Proc.devRef .tc main_arg4) = m ((c : Thread nD τ).loc main_arg4) := by
  show StableHlo.after hostOps1 (W4 m ρ c) (Proc.devRef .tc main_arg4) = _
  after_results_simp
  rw [W4_of_ne m ρ c main_arg4 (by decide), W3_arg4]

/-- The two biases re-laid as rows. -/
theorem W5_v46 (c : Dev nD) : W5 m ρ c (Proc.devRef .tc main_v46) = shapeCast S1x64 (m ((c : Thread nD τ).loc main_arg3)) shapeCasts_S64_S1x64 := by
  show StableHlo.after hostOps1 (W4 m ρ c) (Proc.devRef .tc main_v46) = _
  after_results_simp
  rw [W4_of_ne m ρ c main_arg3 (by decide), W3_arg3]
  rfl
theorem W5_v47 (c : Dev nD) : W5 m ρ c (Proc.devRef .tc main_v47) = shapeCast S1x40 (m ((c : Thread nD τ).loc main_arg5)) shapeCasts_S40_S1x40 := by
  show StableHlo.after hostOps1 (W4 m ρ c) (Proc.devRef .tc main_v47) = _
  after_results_simp
  rw [W4_of_ne m ρ c main_arg5 (by decide), W3_arg5]
  rfl

end Chain

/-! ## The two results, over the extended reals -/

section Results
variable (m : (ℓ : Loc nD τ sig) → Buf (Elt Ideal) ℓ) (ρ : Dev nD → PrngReg)

/-- A vector re-laid as [1, n] reads, at (0, k), its entry k. -/
theorem relay_eq {n : ℕ} (b : FVec Ideal ⟨1, ![n]⟩ .f32) (h : (⟨1, ![n]⟩ : Shape).ShapeCasts ⟨2, ![1, n]⟩) :
    shapeCast ⟨2, ![1, n]⟩ b h = Gcn.row b := by
  funext i
  obtain ⟨z, k, rfl⟩ : ∃ (z : Fin 1) (k : Fin n), i = ix2 z k := ⟨i 0, i 1, eq_ix2 i⟩
  refine (shapeCast_apply _ h (ix2 z k) (ix1 k) (by
    rw [Shape.rowMajor_val_two, Shape.rowMajor_val_one]
    show k.val = z.val * n + k.val
    have := z.isLt
    have hz : z.val = 0 := by omega
    rw [hz]; omega)).trans ?_
  rfl

/-- The projected table the first region leaves: the product of the features by the first weights. -/
theorem proj_eq (c : Dev nD) :
    W4 m ρ c (Proc.devRef .tc main_v32)
      = PlainProduct.prod (M := 100000) (K := 128) (N := 64) (φ₁ := .f32) (φ₂ := .f32)
          (m ((c : Thread nD τ).loc main_arg0)) (m ((c : Thread nD τ).loc main_arg2)) := by
  refine (W4_arr m ρ c 2).trans ((Region0.final (V3 m ρ) c).trans ?_)
  show PlainProduct.prod (M := 100000) (K := 128) (N := 64) (φ₁ := .f32) (φ₂ := .f32)
      (W3 m ρ c (Proc.devRef .tc main_arg0)) (W3 m ρ c (Proc.devRef .tc main_arg2)) = _
  rw [W3_arg0, W3_arg2]

/-- The aggregated table of the kernel program, as a function of the arguments. -/
abbrev aggK (c : Dev nD) : FVec Ideal S100000x64 .f32 :=
  Cert.ReferenceIdeal.RefValue.aggOf (F := Ideal)
    (PlainProduct.prod (M := 100000) (K := 128) (N := 64) (φ₁ := .f32) (φ₂ := .f32)
      (m ((c : Thread nD τ).loc main_arg0)) (m ((c : Thread nD τ).loc main_arg2)))
    (m ((c : Thread nD τ).loc main_arg1))

/-- The first result: the hidden table of the aggregation. -/
abbrev hiddenK (c : Dev nD) : FVec Ideal S100000x64 .f32 :=
  Gcn.hidden (N := 100000) (C := 64) (aggK m c) (Gcn.row (n := 64) (m ((c : Thread nD τ).loc main_arg3)))

/-- The second result: its log-probabilities. -/
abbrev logprobK (c : Dev nD) : FVec Ideal S100000x40 .f32 :=
  Gcn.logprob (N := 100000) (C := 64) (K := 40) (hiddenK m c) (m ((c : Thread nD τ).loc main_arg4))
    (Gcn.row (n := 40) (m ((c : Thread nD τ).loc main_arg5)))

theorem hidden_in (c : Dev nD) : Region1.hiddenAll (V5 m ρ) c = hiddenK m c := by
  show Gcn.hidden (N := 100000) (C := 64) (W5 m ρ c (Proc.devRef .tc main_v45)) (W5 m ρ c (Proc.devRef .tc main_v46)) = _
  rw [agg_eq, proj_eq, W5_v46, relay_eq]

theorem out0_eq (c : Dev nD) : W6 m ρ c (Proc.devRef .tc main_v48_0) = hiddenK m c :=
  (W6_arr m ρ c 4).trans ((Region1.final4 (V5 m ρ) c).trans (hidden_in m ρ c))

theorem out1_eq (c : Dev nD) : W6 m ρ c (Proc.devRef .tc main_v48_1) = logprobK m c := by
  refine (W6_arr m ρ c 5).trans ((Region1.final5 (V5 m ρ) c).trans ?_)
  show Gcn.logprob (N := 100000) (C := 64) (K := 40) (Region1.hiddenAll (V5 m ρ) c) (W5 m ρ c (Proc.devRef .tc main_arg4))
      (W5 m ρ c (Proc.devRef .tc main_v47)) = _
  rw [hidden_in, W5_arg4, W5_v47, relay_eq]

end Results

end Cert.KernelIdeal.Result

end
-- ==== Proof.RefStages.lean ====
/-
  The reference's run, read stretch by stretch. Its 85 host operations are taken in four consecutive pieces: the
  index vectors and the edge normalisation (43 operations on the edge list alone); the product of the features by
  the first weights; the gather, scaling and scatter-add; and the bias, rectifier, second product and log-softmax.
  After each piece the buffers a later piece reads hold the stage functions of the launch contents, so after all of
  them the two result buffers hold the stages of the two results, and no piece writes an argument.
-/
import proofs.«161004_j27032524161265_1_alg».proof.Proof.RefRead
import Idealize.ShloMosaic.Lib.StableHlo.Run
import Idealize.ShloMosaic.Lib.Pipeline.Frame

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The operation list is its four pieces in order. -/
theorem ops_eq : (ops : List (HloOp τ sig (Elt F))) = opsA ++ (opsB ++ (opsC ++ opsD)) := rfl

theorem after_ops (W : Valuation τ sig (Elt F)) :
    after ops W = after opsD (after opsC (after opsB (after opsA W))) := by
  rw [ops_eq, StableHlo.after_append, StableHlo.after_append, StableHlo.after_append]

/-! ## No piece writes an argument; the second piece writes the projected table only -/

theorem A_arg0 (W : Valuation τ sig (Elt F)) : after opsA W (Proc.devRef .tc main_arg0) = W (Proc.devRef .tc main_arg0) := by
  after_results_simp <;> rfl
theorem A_arg1 (W : Valuation τ sig (Elt F)) : after opsA W (Proc.devRef .tc main_arg1) = W (Proc.devRef .tc main_arg1) := by
  after_results_simp <;> rfl
theorem A_arg2 (W : Valuation τ sig (Elt F)) : after opsA W (Proc.devRef .tc main_arg2) = W (Proc.devRef .tc main_arg2) := by
  after_results_simp <;> rfl
theorem A_arg3 (W : Valuation τ sig (Elt F)) : after opsA W (Proc.devRef .tc main_arg3) = W (Proc.devRef .tc main_arg3) := by
  after_results_simp <;> rfl
theorem A_arg4 (W : Valuation τ sig (Elt F)) : after opsA W (Proc.devRef .tc main_arg4) = W (Proc.devRef .tc main_arg4) := by
  after_results_simp <;> rfl
theorem A_arg5 (W : Valuation τ sig (Elt F)) : after opsA W (Proc.devRef .tc main_arg5) = W (Proc.devRef .tc main_arg5) := by
  after_results_simp <;> rfl
theorem B_arg0 (W : Valuation τ sig (Elt F)) : after opsB W (Proc.devRef .tc main_arg0) = W (Proc.devRef .tc main_arg0) := by
  after_results_simp <;> rfl
theorem B_arg1 (W : Valuation τ sig (Elt F)) : after opsB W (Proc.devRef .tc main_arg1) = W (Proc.devRef .tc main_arg1) := by
  after_results_simp <;> rfl
theorem B_arg2 (W : Valuation τ sig (Elt F)) : after opsB W (Proc.devRef .tc main_arg2) = W (Proc.devRef .tc main_arg2) := by
  after_results_simp <;> rfl
theorem B_arg3 (W : Valuation τ sig (Elt F)) : after opsB W (Proc.devRef .tc main_arg3) = W (Proc.devRef .tc main_arg3) := by
  after_results_simp <;> rfl
theorem B_arg4 (W : Valuation τ sig (Elt F)) : after opsB W (Proc.devRef .tc main_arg4) = W (Proc.devRef .tc main_arg4) := by
  after_results_simp <;> rfl
theorem B_arg5 (W : Valuation τ sig (Elt F)) : after opsB W (Proc.devRef .tc main_arg5) = W (Proc.devRef .tc main_arg5) := by
  after_results_simp <;> rfl
theorem C_arg0 (W : Valuation τ sig (Elt F)) : after opsC W (Proc.devRef .tc main_arg0) = W (Proc.devRef .tc main_arg0) := by
  after_results_simp <;> rfl
theorem C_arg1 (W : Valuation τ sig (Elt F)) : after opsC W (Proc.devRef .tc main_arg1) = W (Proc.devRef .tc main_arg1) := by
  after_results_simp <;> rfl
theorem C_arg2 (W : Valuation τ sig (Elt F)) : after opsC W (Proc.devRef .tc main_arg2) = W (Proc.devRef .tc main_arg2) := by
  after_results_simp <;> rfl
theorem C_arg3 (W : Valuation τ sig (Elt F)) : after opsC W (Proc.devRef .tc main_arg3) = W (Proc.devRef .tc main_arg3) := by
  after_results_simp <;> rfl
theorem C_arg4 (W : Valuation τ sig (Elt F)) : after opsC W (Proc.devRef .tc main_arg4) = W (Proc.devRef .tc main_arg4) := by
  after_results_simp <;> rfl
theorem C_arg5 (W : Valuation τ sig (Elt F)) : after opsC W (Proc.devRef .tc main_arg5) = W (Proc.devRef .tc main_arg5) := by
  after_results_simp <;> rfl
theorem D_arg0 (W : Valuation τ sig (Elt F)) : after opsD W (Proc.devRef .tc main_arg0) = W (Proc.devRef .tc main_arg0) := by
  after_results_simp <;> rfl
theorem D_arg1 (W : Valuation τ sig (Elt F)) : after opsD W (Proc.devRef .tc main_arg1) = W (Proc.devRef .tc main_arg1) := by
  after_results_simp <;> rfl
theorem D_arg2 (W : Valuation τ sig (Elt F)) : after opsD W (Proc.devRef .tc main_arg2) = W (Proc.devRef .tc main_arg2) := by
  after_results_simp <;> rfl
theorem D_arg3 (W : Valuation τ sig (Elt F)) : after opsD W (Proc.devRef .tc main_arg3) = W (Proc.devRef .tc main_arg3) := by
  after_results_simp <;> rfl
theorem D_arg4 (W : Valuation τ sig (Elt F)) : after opsD W (Proc.devRef .tc main_arg4) = W (Proc.devRef .tc main_arg4) := by
  after_results_simp <;> rfl
theorem D_arg5 (W : Valuation τ sig (Elt F)) : after opsD W (Proc.devRef .tc main_arg5) = W (Proc.devRef .tc main_arg5) := by
  after_results_simp <;> rfl
theorem B_v3 (W : Valuation τ sig (Elt F)) : after opsB W (Proc.devRef .tc main_v3) = W (Proc.devRef .tc main_v3) := by
  after_results_simp <;> rfl
theorem B_v6 (W : Valuation τ sig (Elt F)) : after opsB W (Proc.devRef .tc main_v6) = W (Proc.devRef .tc main_v6) := by
  after_results_simp <;> rfl
theorem B_v31 (W : Valuation τ sig (Elt F)) : after opsB W (Proc.devRef .tc main_v31) = W (Proc.devRef .tc main_v31) := by
  after_results_simp <;> rfl

/-! ## What each piece leaves -/

/-- After the first piece: the source and target index vectors and the edge normalisation, of the edge list. -/
theorem A_v3 (W : Valuation τ sig (Elt F)) :
    after opsA W (Proc.devRef .tc main_v3) = val_main_v3 (F := F) (W (Proc.devRef .tc main_arg1)) := by
  after_results_simp <;> rfl
theorem A_v6 (W : Valuation τ sig (Elt F)) :
    after opsA W (Proc.devRef .tc main_v6) = val_main_v6 (F := F) (W (Proc.devRef .tc main_arg1)) := by
  after_results_simp <;> rfl
theorem A_v31 (W : Valuation τ sig (Elt F)) :
    after opsA W (Proc.devRef .tc main_v31) = val_main_v31 (F := F) (W (Proc.devRef .tc main_arg1)) := by
  after_results_simp <;> (try simp only [TRef.ofBuf, TRef.toBuf, cast_eq]) <;> rfl

/-- After the second piece: the projected table. -/
theorem B_v32 (W : Valuation τ sig (Elt F)) :
    after opsB W (Proc.devRef .tc main_v32)
      = val_main_v32 (F := F) (W (Proc.devRef .tc main_arg0)) (W (Proc.devRef .tc main_arg2)) := by
  after_results_simp <;> rfl

/-- After the third piece: the aggregated table, when the piece is entered at the stages it reads. -/
theorem C_v45 (W : Valuation τ sig (Elt F)) (x0 : (⟨S100000x128, .f32⟩ : BufTy).Contents (Elt F)) (x1 : (⟨S2x1600000, .i32⟩ : BufTy).Contents (Elt F))
    (x2 : (⟨S128x64, .f32⟩ : BufTy).Contents (Elt F))
    (h3 : W (Proc.devRef .tc main_v3) = val_main_v3 (F := F) x1) (h6 : W (Proc.devRef .tc main_v6) = val_main_v6 (F := F) x1)
    (h31 : W (Proc.devRef .tc main_v31) = val_main_v31 (F := F) x1)
    (h32 : W (Proc.devRef .tc main_v32) = val_main_v32 (F := F) x0 x2) :
    after opsC W (Proc.devRef .tc main_v45) = val_main_v45 (F := F) x0 x1 x2 := by
  after_results_simp
  rw [h3, h6, h31, h32]
  rfl

/-- Contents carried to a buffer's type and back are the contents. -/
theorem ofBuf_toBuf {T : BufTy} (x : TRef sig T) (v : T.Contents (Elt F)) : x.ofBuf (x.toBuf v) = v := by
  obtain ⟨r, h, _, _⟩ := x
  subst h
  rfl

/-- At a literal buffer whose type is the value's, the carrying is the identity. -/
theorem toBuf_v54 (p1 p2 p3) (v : (⟨S100000x40, .f32⟩ : BufTy).Contents (Elt F)) :
    (TRef.of (T := ⟨S100000x40, .f32⟩) main_v54 p1 p2 p3).toBuf v = v := rfl
theorem ofBuf_v53 (p1 p2 p3) (v : (⟨S100000x40, .f32⟩ : BufTy).Contents (Elt F)) :
    (TRef.of (T := ⟨S100000x40, .f32⟩) main_v53 p1 p2 p3).ofBuf v = v := rfl
theorem toBuf_v49 (p1 p2 p3) (v : (⟨S100000x64, .f32⟩ : BufTy).Contents (Elt F)) :
    (TRef.of (T := ⟨S100000x64, .f32⟩) main_v49 p1 p2 p3).toBuf v = v := rfl
theorem ofBuf_v48 (p1 p2 p3) (v : (⟨S100000x64, .f32⟩ : BufTy).Contents (Elt F)) :
    (TRef.of (T := ⟨S100000x64, .f32⟩) main_v48 p1 p2 p3).ofBuf v = v := rfl

/-- After the last piece: the two results, when the piece is entered at the aggregated table. -/
theorem D_v49 (W : Valuation τ sig (Elt F)) (x0 : (⟨S100000x128, .f32⟩ : BufTy).Contents (Elt F)) (x1 : (⟨S2x1600000, .i32⟩ : BufTy).Contents (Elt F))
    (x2 : (⟨S128x64, .f32⟩ : BufTy).Contents (Elt F)) (x3 : (⟨S64, .f32⟩ : BufTy).Contents (Elt F))
    (h45 : W (Proc.devRef .tc main_v45) = val_main_v45 (F := F) x0 x1 x2) (h3 : W (Proc.devRef .tc main_arg3) = x3) :
    after opsD W (Proc.devRef .tc main_v49) = val_main_v49 (F := F) x0 x1 x2 x3 := by
  after_results_simp
  simp only [ofBuf_toBuf, toBuf_v49, ofBuf_v48]
  rw [h45, h3]
  rfl
theorem D_v54 (W : Valuation τ sig (Elt F)) (x0 : (⟨S100000x128, .f32⟩ : BufTy).Contents (Elt F)) (x1 : (⟨S2x1600000, .i32⟩ : BufTy).Contents (Elt F))
    (x2 : (⟨S128x64, .f32⟩ : BufTy).Contents (Elt F)) (x3 : (⟨S64, .f32⟩ : BufTy).Contents (Elt F)) (x4 : (⟨S64x40, .f32⟩ : BufTy).Contents (Elt F)) (x5 : (⟨S40, .f32⟩ : BufTy).Contents (Elt F))
    (h45 : W (Proc.devRef .tc main_v45) = val_main_v45 (F := F) x0 x1 x2) (h3 : W (Proc.devRef .tc main_arg3) = x3)
    (h4 : W (Proc.devRef .tc main_arg4) = x4) (h5 : W (Proc.devRef .tc main_arg5) = x5) :
    after opsD W (Proc.devRef .tc main_v54) = val_main_v54 (F := F) x0 x1 x2 x3 x4 x5 := by
  after_results_simp
  simp only [ofBuf_toBuf, toBuf_v54, ofBuf_v53, toBuf_v49, ofBuf_v48]
  rw [h45, h3, h4, h5]
  rfl

/-! ## The whole list -/

theorem after_arg0 (W : Valuation τ sig (Elt F)) : after ops W (Proc.devRef .tc main_arg0) = W (Proc.devRef .tc main_arg0) := by
  rw [after_ops, D_arg0, C_arg0, B_arg0, A_arg0]
theorem after_arg1 (W : Valuation τ sig (Elt F)) : after ops W (Proc.devRef .tc main_arg1) = W (Proc.devRef .tc main_arg1) := by
  rw [after_ops, D_arg1, C_arg1, B_arg1, A_arg1]
theorem after_arg2 (W : Valuation τ sig (Elt F)) : after ops W (Proc.devRef .tc main_arg2) = W (Proc.devRef .tc main_arg2) := by
  rw [after_ops, D_arg2, C_arg2, B_arg2, A_arg2]
theorem after_arg3 (W : Valuation τ sig (Elt F)) : after ops W (Proc.devRef .tc main_arg3) = W (Proc.devRef .tc main_arg3) := by
  rw [after_ops, D_arg3, C_arg3, B_arg3, A_arg3]
theorem after_arg4 (W : Valuation τ sig (Elt F)) : after ops W (Proc.devRef .tc main_arg4) = W (Proc.devRef .tc main_arg4) := by
  rw [after_ops, D_arg4, C_arg4, B_arg4, A_arg4]
theorem after_arg5 (W : Valuation τ sig (Elt F)) : after ops W (Proc.devRef .tc main_arg5) = W (Proc.devRef .tc main_arg5) := by
  rw [after_ops, D_arg5, C_arg5, B_arg5, A_arg5]

/-- The aggregated table after the first three pieces. -/
theorem ABC_v45 (W : Valuation τ sig (Elt F)) :
    after opsC (after opsB (after opsA W)) (Proc.devRef .tc main_v45)
      = val_main_v45 (F := F) (W (Proc.devRef .tc main_arg0)) (W (Proc.devRef .tc main_arg1)) (W (Proc.devRef .tc main_arg2)) :=
  C_v45 _ _ _ _ ((B_v3 _).trans (A_v3 W)) ((B_v6 _).trans (A_v6 W)) ((B_v31 _).trans (A_v31 W))
    ((B_v32 _).trans (by rw [A_arg0, A_arg2]))

theorem after_v49 (W : Valuation τ sig (Elt F)) :
    after ops W (Proc.devRef .tc main_v49)
      = val_main_v49 (F := F) (W (Proc.devRef .tc main_arg0)) (W (Proc.devRef .tc main_arg1)) (W (Proc.devRef .tc main_arg2))
          (W (Proc.devRef .tc main_arg3)) := by
  rw [after_ops]
  exact D_v49 _ _ _ _ _ (ABC_v45 W) (by rw [C_arg3, B_arg3, A_arg3])

theorem after_v54 (W : Valuation τ sig (Elt F)) :
    after ops W (Proc.devRef .tc main_v54)
      = val_main_v54 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [after_ops]
  exact D_v54 _ _ _ _ _ _ _ (ABC_v45 W) (by rw [C_arg3, B_arg3, A_arg3]) (by rw [C_arg4, B_arg4, A_arg4])
    (by rw [C_arg5, B_arg5, A_arg5])

/-- On every device, from any memory with zero counters: every weakly fair execution of the reference terminates
    with the two results at their stages of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = val_main_v49 (F := F) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v54) = val_main_v54 (F := F) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v49).trans (after_v49 _), (h c main_v54).trans (after_v54 _),
      (h c main_arg0).trans (after_arg0 _), (h c main_arg1).trans (after_arg1 _), (h c main_arg2).trans (after_arg2 _),
      (h c main_arg3).trans (after_arg3 _), (h c main_arg4).trans (after_arg4 _), (h c main_arg5).trans (after_arg5 _)⟩)
    (run_seq scopedRefs_eq scopedSems_eq defs main (fun _ => ops) main_eq (fun _ => ops_sub) m ρ)

end Cert.ReferenceIdeal.Stages

end
-- ==== Proof.lean ====
/-
  The certificate of a two-layer graph network: a graph convolution (features projected by a first weight table,
  aggregated over the edges with symmetric degree normalisation and self-loops, biased, rectified) followed by a
  linear classifier and a row-wise log-softmax.

  Over the extended reals the kernel program and the reference compute the same two arrays. Both form the source
  and target index vectors and the edge normalisation from the edge list by the same host operations. The kernel's
  first region multiplies tiles of 2000 feature rows by the first weights with narrowed operands; narrowing is the
  identity there, so the region leaves the plain product, which is what the reference's host product is. Both
  programs then gather, scale and scatter-add that table by the same operations, carried as one function of the
  table and the edge list. The kernel's second region computes, on tiles of 2000 rows, the rectified sum with the
  first bias and the log-softmax of the product with the second weights plus the second bias; both are row-local,
  so the tiles assemble into the hidden table and its log-probabilities, the functions the reference's host
  operations read to index by index (its row maximum taken once more against the lowest value changes nothing).

  The three frames: the kernel programs' are the generated ones; the reference's is its run with the results dropped.
  The idealisation rewrote no operation, so `preserves` has nothing to state.
-/
import proofs.«161004_j27032524161265_1_alg».proof.Defs
import proofs.«161004_j27032524161265_1_alg».proof.Proof.Gen.Kernel
import proofs.«161004_j27032524161265_1_alg».proof.Proof.Gen.Kernel.Skeleton
import proofs.«161004_j27032524161265_1_alg».proof.Proof.Gen.Kernel.Launch
import proofs.«161004_j27032524161265_1_alg».proof.Proof.Gen.Kernel.Points
import proofs.«161004_j27032524161265_1_alg».proof.Proof.Gen.Kernel.Frame
import proofs.«161004_j27032524161265_1_alg».proof.Proof.Gen.KernelIdeal
import proofs.«161004_j27032524161265_1_alg».proof.Proof.Gen.KernelIdeal.Skeleton
import proofs.«161004_j27032524161265_1_alg».proof.Proof.Gen.KernelIdeal.Launch
import proofs.«161004_j27032524161265_1_alg».proof.Proof.Gen.KernelIdeal.Points
import proofs.«161004_j27032524161265_1_alg».proof.Proof.Gen.KernelIdeal.Frame
import proofs.«161004_j27032524161265_1_alg».proof.Proof.Gen.ReferenceIdeal
import proofs.«161004_j27032524161265_1_alg».proof.Proof.Gen.Pre_finite_inputs
import proofs.«161004_j27032524161265_1_alg».proof.Proof.KernelRun
import proofs.«161004_j27032524161265_1_alg».proof.Proof.KernelValue
import proofs.«161004_j27032524161265_1_alg».proof.Proof.RefValue
import proofs.«161004_j27032524161265_1_alg».proof.Proof.RefStages
import Idealize.ShloMosaic.Adequacy
import Idealize.ShloMosaic.Init

noncomputable section

namespace Cert.Proof

open Idealize.ShloMosaic Idealize.ShloMosaic.TcCoe Idealize.SL.Sem

/-- The reference's first result is the hidden table of the shared aggregation of the plain product. -/
theorem ref0 (m' : (ℓ : Loc Cert.ReferenceIdeal.nD Cert.ReferenceIdeal.τ Cert.ReferenceIdeal.sig) → Buf (Elt Ideal) ℓ)
    (c : Dev Cert.ReferenceIdeal.nD) :
    Cert.ReferenceIdeal.ReadP.val_main_v49 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      = Gcn.hidden (N := 100000) (C := 64)
          (Cert.ReferenceIdeal.RefValue.aggOf (F := Ideal)
            (PlainProduct.prod (M := 100000) (K := 128) (N := 64) (φ₁ := .f32) (φ₂ := .f32) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)))
            (m' ((c.tc : Thread Cert.ReferenceIdeal.nD Cert.ReferenceIdeal.τ).loc Cert.ReferenceIdeal.main_arg1)))
          (Gcn.row (n := 64) (m' ((c.tc : Thread Cert.ReferenceIdeal.nD Cert.ReferenceIdeal.τ).loc Cert.ReferenceIdeal.main_arg3))) := by
  rw [Cert.ReferenceIdeal.RefValue.v49_eq, Cert.ReferenceIdeal.RefValue.v45_eq, Cert.ReferenceIdeal.RefValue.v32_eq]

/-- The reference's second result is the log-probabilities of its first. -/
theorem ref1 (m' : (ℓ : Loc Cert.ReferenceIdeal.nD Cert.ReferenceIdeal.τ Cert.ReferenceIdeal.sig) → Buf (Elt Ideal) ℓ)
    (c : Dev Cert.ReferenceIdeal.nD) :
    Cert.ReferenceIdeal.ReadP.val_main_v54 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      = Gcn.logprob (N := 100000) (C := 64) (K := 40)
          (Cert.ReferenceIdeal.ReadP.val_main_v49 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
          (m' ((c.tc : Thread Cert.ReferenceIdeal.nD Cert.ReferenceIdeal.τ).loc Cert.ReferenceIdeal.main_arg4)) (Gcn.row (n := 40) (m' ((c.tc : Thread Cert.ReferenceIdeal.nD Cert.ReferenceIdeal.τ).loc Cert.ReferenceIdeal.main_arg5))) :=
  Cert.ReferenceIdeal.RefValue.v54_eq _ _ _ _ _ _

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Stages.run (F := Ideal) m ρ)

theorem preserves : Cert.preserves_Kernel_KernelIdeal := trivial

/-- Run from memories that agree on the arguments, both programs end with the hidden table and its log-probabilities. -/
theorem algebraic : Cert.algebraic_KernelIdeal_ReferenceIdeal := by
  intro m ρ m' ρ' _ hagree
  refine ⟨fun c => Cert.KernelIdeal.Result.hiddenK m c, fun c => Cert.KernelIdeal.Result.logprobK m c, ?_, ?_⟩
  · exact (θ_run Cert.KernelIdeal.defs _ _).mono
      (fun _ h c => ⟨(h c).1.trans (Cert.KernelIdeal.Result.out0_eq m ρ c),
        (h c).2.1.trans (Cert.KernelIdeal.Result.out1_eq m ρ c), (h c).2.2⟩)
      (Cert.KernelIdeal.GenRun.run (F := Ideal) m ρ)
  · refine (θ_run Cert.ReferenceIdeal.defs _ _).mono (fun _ h c => ⟨(h c).1.trans ?_, (h c).2.1.trans ?_, (h c).2.2⟩)
      (Cert.ReferenceIdeal.Stages.run (F := Ideal) m' ρ')
    · rw [ref0, (hagree c).1, (hagree c).2.1, (hagree c).2.2.1, (hagree c).2.2.2.1]
    · rw [ref1, ref0, (hagree c).1, (hagree c).2.1, (hagree c).2.2.1, (hagree c).2.2.2.1, (hagree c).2.2.2.2.1,
        (hagree c).2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
